-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1024 .f32) (main_arg1 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  let main_c_2 : IVec S_ 32 := constantI S_ 32 1024#32
  let main_v8 : IVec S65536 32 := broadcastInDim S65536 ![] bcast_S_S65536 main_c_2
  let main_v9 : IVec S65536 1 := cmpi .slt main_arg1 main_v8
  let main_c_3 : IVec S_ 1 := constantI S_ 1 1#1
  let main_v10 : IVec S_ 1 := (fun x v => Host.reduce IntOp.andi x v reducesTo_S65536_S_d0 h_S_) main_v9 main_c_3
  let main_v11 : IVec S_ 1 := andi main_v7 main_v10
  main_v11
-- ==== Kernel.lean ====
abbrev S65536x1024 : Shape := ⟨2, ![65536, 1024]⟩
abbrev S65536 : Shape := ⟨1, ![65536]⟩
abbrev S_ : Shape := ⟨0, ![]⟩
abbrev S65536x1 : Shape := ⟨2, ![65536, 1]⟩
abbrev S16x128 : Shape := ⟨2, ![16, 128]⟩
abbrev S2048x1024 : Shape := ⟨2, ![2048, 1024]⟩
abbrev S2048x1 : Shape := ⟨2, ![2048, 1]⟩
abbrev S8x128 : Shape := ⟨2, ![8, 128]⟩
abbrev S1x1024 : Shape := ⟨2, ![1, 1024]⟩
abbrev S2048 : Shape := ⟨1, ![2048]⟩
abbrev S1 : Shape := ⟨1, ![1]⟩
abbrev S1x1 : Shape := ⟨2, ![1, 1]⟩

abbrev nBuf : Space → Nat
  | .hbm => 16
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S16x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S65536 : S_.BroadcastsInDim S65536 (![] : Fin 0 → Fin S65536.rank)
  shapeCasts_S65536_S65536x1 : S65536.ShapeCasts S65536x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x1024_d1_w32 : S1x1024.Iotas .tc 32 [1]
  broadcasts_S1x1024_S2048x1024 : S1x1024.Broadcasts S2048x1024
  broadcasts_S2048x1_S2048x1024 : S2048x1.Broadcasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x1024 : Shape := ⟨2, ![65536, 1024]⟩
abbrev S65536 : Shape := ⟨1, ![65536]⟩
abbrev S_ : Shape := ⟨0, ![]⟩
abbrev S65536x1 : Shape := ⟨2, ![65536, 1]⟩
abbrev S65536x2 : Shape := ⟨2, ![65536, 2]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x1, .i32⟩
  | .hbm, ⟨19, _⟩ => ⟨S65536x2, .i32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536_S_d0 : S65536.ReducesTo [0] S_
  h_S_ : 0 < S_.numel
  gather_S65536x1024_S65536x2_S65536_n_01_n_n_01_1_11_wf : GatherDims.WF S65536x1024 S65536x2 S65536 [] [0, 1] [] [0, 1] [] 1 ![1, 1]

variable [Facts₀]

def gather_S65536x1024_S65536x2_S65536_n_01_n_n_01_1_11 : GatherDims S65536x1024 S65536x2 S65536 where
  offsetDims := []
  collapsedSliceDims := [0, 1]
  operandBatchingDims := []
  startIndicesBatchingDims := []
  startIndexMap := [0, 1]
  indexVectorDim := 1
  sliceSizes := ![1, 1]
  wf := gather_S65536x1024_S65536x2_S65536_n_01_n_n_01_1_11_wf

class Facts : Prop extends Facts₀ where

variable [Facts]
-- ==== Proof.Spec.lean ====
/-
  The function both programs compute, stated once over the argument arrays alone.

  For an array `x` of 65536 rows and 1024 columns and a label word per row, the HINGE of row `i` is
  `max (μ - x[i, ℓ i]) 0`, where `ℓ i` is the column the row's label names and `μ` is the margin (the
  same 32-bit pattern in both programs, never evaluated). The TOTAL is the sum of the hinges over the
  rows; the result is `(0 + total) / 65536`, the quotient by the same pattern on both sides.

  A label names a column when, read as an unsigned word, it is below 1024 (`InRange`): then its signed
  and unsigned readings agree, a clamp into [0, 1023] leaves it alone, and "add 1024 if negative" does too.
-/
import Idealize.ShloMosaic.PureOps.Ideal
import Idealize.ShloMosaic.PureOps.Ideal.Laws
import Idealize.ShloMosaic.Lib.ValueIdx

noncomputable section

open scoped BigOperators

namespace Cert.LabelHinge

open Idealize.ShloMosaic Idealize.ShloMosaic.ValueIdx

/-- The shape of the array of scores: 65536 rows, 1024 columns. -/
abbrev SX : Shape := ⟨2, ![65536, 1024]⟩
/-- The shape of the array of labels: one word per row. -/
abbrev SL : Shape := ⟨1, ![65536]⟩
/-- The scalar shape. -/
abbrev S0 : Shape := ⟨0, ![]⟩

/-- Every label, read as an unsigned word, is a column number. -/
def InRange (l : IVec SL 32) : Prop := ∀ i : SL.Idx, (l i).toNat < 1024

/-- The column row `i`'s label names (its unsigned value; reduced mod 1024 only so that the function is total). -/
def col (l : IVec SL 32) (i : Fin 65536) : Fin 1024 := ⟨(l (ix1 i)).toNat % 1024, Nat.mod_lt _ (by decide)⟩

/-- Under `InRange` the column is the label's unsigned value itself. -/
theorem col_val {l : IVec SL 32} (h : InRange l) (i : Fin 65536) : (col l i).val = (l (ix1 i)).toNat :=
  Nat.mod_eq_of_lt (h (ix1 i))

/-- The margin: one 32-bit pattern, read at the ideal instance. -/
abbrev margin : EReal := Ideal.ofBits .f32 0x3F7FFF58#32

/-- One row's contribution: the positive part of margin minus score. -/
def hinge (s : EReal) : EReal := max (margin - s) 0

/-- A hinge is never negative, so sums of hinges never meet `⊥`. -/
theorem hinge_nonneg (s : EReal) : 0 ≤ hinge s := le_max_right _ _

/-- The sum of the hinges over all rows, each row read at its label's column. -/
def total (x : SX.Idx → EReal) (l : IVec SL 32) : EReal := ∑ i : Fin 65536, hinge (x (ix2 i (col l i)))

/-- The scalar both programs reduce to before their common last division: zero plus the total. -/
def sumCell (x : SX.Idx → EReal) (l : IVec SL 32) : S0.Idx → EReal := fun _ => Ideal.ofBits .f32 0x00000000#32 + total x l

/-- The result: that scalar divided by the pattern of 65536.0, as the host divides. -/
def mean (x : SX.Idx → EReal) (l : IVec SL 32) : S0.Idx → EReal :=
  Host.divf (F := Ideal) (sumCell x l) (constant (F := Ideal) S0 .f32 0x47800000#32)

/-- THE ROW LAW. Over a row of 1024 columns, the sum of `max (if c = k then a c else 0) 0` is `max (a k) 0`:
    every column but `k` contributes `max 0 0 = 0`. No finiteness is used: only that `0` is the unit of `+`. -/
theorem sum_masked_row (a : Fin 1024 → EReal) (k : Fin 1024) :
    (∑ c : Fin 1024, max (if c = k then a c else 0) 0) = max (a k) 0 := by
  have h : ∀ c : Fin 1024, max (if c = k then a c else 0) 0 = if c = k then max (a k) 0 else 0 := by
    intro c
    by_cases hc : c = k
    · subst hc; simp
    · simp [hc]
  simp only [h]
  rw [Finset.sum_ite_eq' Finset.univ k]
  simp

/-- Rows in blocks: a sum over 65536 rows is the sum over 32 blocks of 2048 consecutive rows. -/
def blockRow : Fin 32 × Fin 2048 ≃ Fin 65536 where
  toFun p := ⟨2048 * p.1.val + p.2.val, by have := p.1.isLt; have := p.2.isLt; omega⟩
  invFun i := (⟨i.val / 2048, by have := i.isLt; omega⟩, ⟨i.val % 2048, Nat.mod_lt _ (by decide)⟩)
  left_inv p := by
    have h1 := p.1.isLt; have h2 := p.2.isLt
    apply Prod.ext <;> apply Fin.ext <;> simp <;> omega
  right_inv i := by apply Fin.ext; simp; omega

theorem sum_rows_blocks (f : Fin 65536 → EReal) :
    (∑ i : Fin 65536, f i) = ∑ t : Fin 32, ∑ r : Fin 2048, f ⟨2048 * t.val + r.val, by have := t.isLt; have := r.isLt; omega⟩ := by
  rw [← Equiv.sum_comp blockRow f, Fintype.sum_prod_type]
  rfl

end Cert.LabelHinge

end
-- ==== Proof.PreRange.lean ====
/-
  The precondition, read: every label is a column number.
-/
import proofs.«408514_j45518063403454_3_alg».proof.Defs
import proofs.«408514_j45518063403454_3_alg».proof.Proof.Gen.Pre_finite_inputs
import proofs.«408514_j45518063403454_3_alg».proof.Proof.Spec
import Idealize.ShloMosaic.Lib.ReduceAll
import Idealize.ShloMosaic.Lib.StableHlo.Predicate

noncomputable section

namespace Cert.LabelHinge

open Idealize.ShloMosaic Idealize.ShloMosaic.ValueIdx

/-- The scalar shape has one index. -/
instance : Subsingleton Cert.Pre_finite_inputs.S_.Idx := ⟨fun a b => funext fun d => d.elim0⟩

/-- A 32-bit word that is at least 0 and below 1024 in the signed order is below 1024 as an unsigned number: were its
    top bit set, its signed reading would be negative. -/
theorem toNat_lt_of_signed_range {a : BitVec 32} (h0 : IntOp.cmpi .sge a 0#32 = 1#1)
    (h1 : IntOp.cmpi .slt a 1024#32 = 1#1) : a.toNat < 1024 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (1024#32 : BitVec 32).toInt = 1024 := by decide
  rw [e0] at h0
  rw [e1] at h1
  rw [BitVec.toInt_eq_toNat_cond] at h0 h1
  have hlt := a.isLt
  split at h0 <;> split at h1 <;> omega

/-- The precondition's value all ones forces every label word into [0, 1024): its second conjunct says each label is
    at least 0 as a signed word, its third that each is below 1024 as a signed word; a signed word in that range is its
    unsigned reading. (The first conjunct, finiteness of the scores, says nothing about the labels.) -/
theorem inRange_of_pre [Cert.Pre_finite_inputs.Facts] {F : FTy → Type} [FloatOps F]
    (x : FVec F Cert.Pre_finite_inputs.S65536x1024 .f32) (l : IVec Cert.Pre_finite_inputs.S65536 32)
    (h : Cert.Pre_finite_inputs.fn (F := F) x l = fun _ => 1#1) : InRange l := by
  intro i
  have h0 := congrFun h ix0
  dsimp only [Cert.Pre_finite_inputs.fn] at h0
  obtain ⟨h7, h10⟩ := IntOp.andi_eq_one.1 h0
  obtain ⟨_, h6⟩ := IntOp.andi_eq_one.1 h7
  have g0 := Host.reduce_andi_all _ _ _ _ _ h6 i
  have g1 := Host.reduce_andi_all _ _ _ _ _ h10 i
  exact toNat_lt_of_signed_range g0 g1

end Cert.LabelHinge

end
-- ==== Proof.RefSide.lean ====
/-
  The reference, read at the ideal instance: for labels that name columns, the value its run ends with is the mean of
  the hinges — each row's gathered score is the score at the label's column (the "add 1024 if negative" select and the
  gather's clamp leave an in-range label alone, as they leave the row number alone), the host's sum over the rows is
  zero plus the sum of the rows' hinges, and the last division is the specification's.
-/
import proofs.«408514_j45518063403454_3_alg».proof.Defs
import proofs.«408514_j45518063403454_3_alg».proof.Proof.Gen.ReferenceIdeal.Run
import proofs.«408514_j45518063403454_3_alg».proof.Proof.Gen.ReferenceIdeal.Read
import proofs.«408514_j45518063403454_3_alg».proof.Proof.Spec
import Idealize.ShloMosaic.Lib.StableHlo.Predicate

noncomputable section

open scoped BigOperators

namespace Cert.LabelHinge.Ref

open Idealize.ShloMosaic Idealize.ShloMosaic.ValueIdx Cert.ReferenceIdeal Cert.ReferenceIdeal.Read

/-! ## Words: a select on "is negative" leaves a small word alone, and the signed reading of a small word is its value -/

/-- A word below 2³¹ is not negative in the signed order. -/
theorem not_slt_zero {a : BitVec 32} (ha : a.toNat < 2 ^ 31) : ¬ IntOp.cmpi .slt a 0#32 = 1#1 := by
  intro h
  have := (StableHlo.Predicate.slt_iff_toNat ha (by decide)).1 h
  simp at this

/-- "Add k if negative" leaves a word below 2³¹ alone. -/
theorem select_neg_small {a k : BitVec 32} (ha : a.toNat < 2 ^ 31) :
    Scalar.select (IntOp.cmpi .slt a 0#32) (IntOp.addi a k) a = a := by
  exact if_neg (not_slt_zero ha)

/-- The signed reading of a word below 2³¹, as a natural number, is its unsigned value. -/
theorem toInt_toNat_small {a : BitVec 32} (ha : a.toNat < 2 ^ 31) : a.toInt.toNat = a.toNat := by
  rw [StableHlo.Predicate.toInt_eq_toNat_of_lt ha]
  exact Int.toNat_natCast _

section
variable [Cert.ReferenceIdeal.Facts] {F : FTy → Type} [FloatOps F]

/-! ## The two columns of start indices -/

/-- The row start index of row i is the word of i: a row number is not negative. -/
theorem row_start (i : Fin 65536) : val_main_v5 (F := F) (ix1 i) = BitVec.ofNat 32 i.val := by
  rw [val_main_v5_apply, val_main_v2_apply, val_main_v4_apply, val_main_v1_apply, val_main_c_apply, val_main_v0_apply]
  exact select_neg_small (by
    have := i.isLt
    show (BitVec.ofNat 32 i.val).toNat < 2 ^ 31
    rw [BitVec.toNat_ofNat]
    exact lt_of_le_of_lt (Nat.mod_le _ _) (by omega))

/-- The column start index of row i is the row's label when the label names a column. -/
theorem col_start (x1 : (⟨S65536, .i32⟩ : BufTy).Contents (Elt F)) (h : InRange x1) (i : Fin 65536) :
    val_main_v10 (F := F) x1 (ix1 i) = x1 (ix1 i) := by
  rw [val_main_v10_apply, val_main_v7_apply, val_main_v9_apply, val_main_v6_apply, val_main_c_1_apply]
  exact select_neg_small (lt_of_lt_of_le (h (ix1 i)) (by decide))

/-! ## The array of start indices, read at its two columns -/

/-- Column 0 of the start indices at row i is the row start index. -/
theorem starts_row (x1 : (⟨S65536, .i32⟩ : BufTy).Contents (Elt F)) (i : Fin 65536) :
    val_main_v13 (F := F) x1 (ix2 i (0 : Fin 2)) = val_main_v5 (F := F) (ix1 i) := by
  unfold val_main_v13
  rw [concatenate_pair_apply_left (t := S65536x2) (s₁ := S65536x1) (s₂ := S65536x1) (1 : Fin S65536x2.rank) _ _ _ (ix2 i (0 : Fin 2)) rfl (ix2 i (0 : Fin 1))
    (fun b => match b with | ⟨0, _⟩ => rfl | ⟨1, _⟩ => rfl)]
  rw [val_main_v11_apply]
  congr 1
  funext a
  match a with
  | ⟨0, _⟩ => rfl

/-- Column 1 of the start indices at row i is the column start index. -/
theorem starts_col (x1 : (⟨S65536, .i32⟩ : BufTy).Contents (Elt F)) (i : Fin 65536) :
    val_main_v13 (F := F) x1 (ix2 i (1 : Fin 2)) = val_main_v10 (F := F) x1 (ix1 i) := by
  unfold val_main_v13
  rw [concatenate_pair_apply_right (t := S65536x2) (s₁ := S65536x1) (s₂ := S65536x1) (1 : Fin S65536x2.rank) _ _ _ (ix2 i (1 : Fin 2)) rfl rfl (ix2 i (0 : Fin 1))
    (fun b => match b with | ⟨0, _⟩ => fun _ => rfl | ⟨1, _⟩ => fun hb => absurd rfl hb) rfl]
  rw [val_main_v12_apply]
  congr 1
  funext a
  match a with
  | ⟨0, _⟩ => rfl

end

section
variable [Cert.ReferenceIdeal.Facts]

/-! ## The gather, read at a row -/

/-- THE GATHER READ AT ROW i: the operand at (r, c), where r and c are the row's two start-index components read signed
    and clamped into their axes: both operand axes are collapsed and start-indexed, so the one result axis is the batch axis
    and no offset or batching coordinate is added. -/
theorem gather_pair_apply {α : Type} (x : S65536x1024.Idx → α) (idx : IVec S65536x2 32) (i r : Fin 65536) (c : Fin 1024)
    (hr : min (idx (ix2 i (0 : Fin 2))).toInt.toNat 65535 = r.val)
    (hc : min (idx (ix2 i (1 : Fin 2))).toInt.toNat 1023 = c.val) :
    Host.gather gather_S65536x1024_S65536x2_S65536_n_01_n_n_01_1_11 x idx (ix1 i) = x (ix2 r c) := by
  unfold Host.gather
  congr 1
  funext a
  refine Fin.ext ?_
  match a with
  | ⟨0, _⟩ =>
    show gather_S65536x1024_S65536x2_S65536_n_01_n_n_01_1_11.start (ix1 i) idx (0 : Fin 2)
        + gather_S65536x1024_S65536x2_S65536_n_01_n_n_01_1_11.batchCoord (ix1 i) (0 : Fin 2)
        + gather_S65536x1024_S65536x2_S65536_n_01_n_n_01_1_11.offCoord (ix1 i) (0 : Fin 2) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S65536x1024_S65536x2_S65536_n_01_n_n_01_1_11.startIndexMap from by decide)]
    have hsi : gather_S65536x1024_S65536x2_S65536_n_01_n_n_01_1_11.siIdx (ix1 i)
        ⟨List.idxOf (0 : Fin 2) gather_S65536x1024_S65536x2_S65536_n_01_n_n_01_1_11.startIndexMap,
          List.idxOf_lt_length_iff.2 (by decide)⟩ = ix2 i (0 : Fin 2) := by
      funext b; refine Fin.ext ?_
      match b with
      | ⟨0, _⟩ => rfl
      | ⟨1, _⟩ => rfl
    rw [hsi]
    exact hr
  | ⟨1, _⟩ =>
    show gather_S65536x1024_S65536x2_S65536_n_01_n_n_01_1_11.start (ix1 i) idx (1 : Fin 2)
        + gather_S65536x1024_S65536x2_S65536_n_01_n_n_01_1_11.batchCoord (ix1 i) (1 : Fin 2)
        + gather_S65536x1024_S65536x2_S65536_n_01_n_n_01_1_11.offCoord (ix1 i) (1 : Fin 2) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S65536x1024_S65536x2_S65536_n_01_n_n_01_1_11.startIndexMap from by decide)]
    have hsi : gather_S65536x1024_S65536x2_S65536_n_01_n_n_01_1_11.siIdx (ix1 i)
        ⟨List.idxOf (1 : Fin 2) gather_S65536x1024_S65536x2_S65536_n_01_n_n_01_1_11.startIndexMap,
          List.idxOf_lt_length_iff.2 (by decide)⟩ = ix2 i (1 : Fin 2) := by
      funext b; refine Fin.ext ?_
      match b with
      | ⟨0, _⟩ => rfl
      | ⟨1, _⟩ => rfl
    rw [hsi]
    exact hc

end

section
variable [Cert.ReferenceIdeal.Facts]

/-! ## One row: the gathered score, and its hinge -/

/-- The gathered score of row i is the score at the label's column: the row start index is i, already inside
    [0, 65535]; the column start index is the label, already inside [0, 1023]. -/
theorem gathered {F : FTy → Type} [FloatOps F] (x0 : (⟨S65536x1024, .f32⟩ : BufTy).Contents (Elt F))
    (x1 : (⟨S65536, .i32⟩ : BufTy).Contents (Elt F)) (h : InRange x1) (i : Fin 65536) :
    val_main_v14 (F := F) x0 x1 (ix1 i) = x0 (ix2 i (col x1 i)) := by
  unfold val_main_v14
  have hi := i.isLt
  have hl : (x1 (ix1 i)).toNat < 1024 := h (ix1 i)
  have e0 : (BitVec.ofNat 32 i.val).toInt.toNat = i.val := by
    rw [StableHlo.Predicate.toInt_ofNat_small i.val (by omega)]
    exact Int.toNat_natCast _
  have e1 : (x1 (ix1 i)).toInt.toNat = (x1 (ix1 i)).toNat := toInt_toNat_small (by omega)
  refine gather_pair_apply x0 _ i i (col x1 i) ?_ ?_
  · rw [starts_row, row_start, e0]; omega
  · rw [starts_col, col_start x1 h, e1, col_val h]; omega

/-- Row i of the reference's vector of maxima is the hinge of the score at the label's column. -/
theorem hinge_row (x0 : (⟨S65536x1024, .f32⟩ : BufTy).Contents (Elt Ideal))
    (x1 : (⟨S65536, .i32⟩ : BufTy).Contents (Elt Ideal)) (h : InRange x1) (i : Fin 65536) :
    val_main_v18 (F := Ideal) x0 x1 (ix1 i) = hinge (x0 (ix2 i (col x1 i))) := by
  rw [val_main_v18_apply, val_main_v16_apply, val_main_v15_apply, val_main_cst_apply, val_main_v17_apply,
    val_main_cst_3_apply, gathered x0 x1 h i]
  show max (Ideal.ofBits .f32 0x3F7FFF58#32 - x0 (ix2 i (col x1 i))) (Ideal.ofBits .f32 0x00000000#32)
    = max (margin - x0 (ix2 i (col x1 i))) 0
  rw [Ideal.ofBits_zero_f32]

/-! ## The sum over the rows, and the result -/

/-- A rank-1 index of the 65536 rows is its coordinate. -/
def rowEquiv : S65536.Idx ≃ Fin 65536 where
  toFun j := j 0
  invFun i := ix1 i
  left_inv j := (eq_ix1 j).symm
  right_inv _ := rfl

/-- A sum over the rank-1 indices is the sum over the row numbers. -/
theorem sum_rows (f : S65536.Idx → EReal) : (∑ j : S65536.Idx, f j) = ∑ i : Fin 65536, f (ix1 i) := by
  rw [← Equiv.sum_comp rowEquiv.symm f]
  rfl

end

/-- The reference's last stage, as a function of the two argument arrays, is the specification's mean when every label
    names a column. -/
theorem ref_eq [Cert.ReferenceIdeal.Facts] (x0 : (⟨S65536x1024, .f32⟩ : BufTy).Contents (Elt Ideal))
    (x1 : (⟨S65536, .i32⟩ : BufTy).Contents (Elt Ideal)) (h : InRange x1) :
    val_main_v20 (F := Ideal) x0 x1 = mean x0 x1 := by
  have hs : val_main_v19 (F := Ideal) x0 x1 = sumCell x0 x1 := by
    funext j
    rw [val_main_v19_apply, val_main_cst_4_apply, sum_rows]
    exact congrArg (fun s : EReal => Ideal.ofBits .f32 0x00000000#32 + s)
      (Finset.sum_congr rfl (fun i _ => hinge_row x0 x1 h i))
  unfold val_main_v20 mean
  rw [hs]
  rfl

end Cert.LabelHinge.Ref

end
-- ==== Proof.Payload.lean ====
/-
  What one grid point adds to the accumulator cell, read at the ideal instance.

  The body's arithmetic over a block of 2048 rows: on row `r` and column `c` it forms
  `max (if c = label r then μ - x[r, c] else 0) 0` (the comparison is between the column's number as a 32-bit word and the
  row's label word), sums over the columns, then over the rows, and adds the result to the accumulator cell it read. So the
  stored cell is the cell read plus `blockSum`, the double sum.
-/
import proofs.«408514_j45518063403454_3_alg».proof.Proof.Gen.KernelIdeal.Skeleton
import proofs.«408514_j45518063403454_3_alg».proof.Proof.Spec
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.LabelHinge.Kernel

open Cert.KernelIdeal Cert.KernelIdeal.Gen Cert.LabelHinge

/-- One entry of the masked block: the hinge of the score where the column's number is the row's label word, zero elsewhere. -/
def maskedEntry (x0 : S2048x1024.Idx → EReal) (x1 : S2048x1.Idx → BitVec 32) (r : Fin 2048) (c : Fin 1024) : EReal :=
  max (Scalar.select (IntOp.cmpi .eq (BitVec.ofNat 32 c.val) (x1 (ix2 r (0 : Fin 1)))) (margin - x0 (ix2 r c)) 0) 0

/-- What a block of 2048 rows contributes: the sum over its rows of the sum over the columns of the masked entries. -/
def blockSum (x0 : S2048x1024.Idx → EReal) (x1 : S2048x1.Idx → BitVec 32) : EReal :=
  ∑ r : Fin 2048, ∑ c : Fin 1024, maskedEntry x0 x1 r c

/-- The body's masked, clipped block at row `r`, column `c`. -/
theorem masked_apply (x0 : Vec Ideal S2048x1024 .f32) (x1 : Vec Ideal S2048x1 .i32) (r : Fin 2048) (c : Fin 1024) :
    maximumf
      (select
        (cmpi CmpIPredicate.eq
          (broadcastTo S2048x1024 (iota Kind.tc S1x1024 32 [1] iota_S1x1024_d1_w32) broadcasts_S1x1024_S2048x1024)
          (broadcastTo S2048x1024 x1 broadcasts_S2048x1_S2048x1024))
        (subf (broadcast S2048x1024 (FloatOps.ofBits (F := Ideal) FTy.f32 0x3F7FFF58#32)) x0)
        (broadcast S2048x1024 (FloatOps.ofBits (F := Ideal) FTy.f32 0x00000000#32)))
      (broadcast S2048x1024 (FloatOps.ofBits (F := Ideal) FTy.f32 0x00000000#32)) (ix2 r c)
      = maskedEntry x0 x1 r c := by
  have e1 : broadcastTo S2048x1024 (iota Kind.tc S1x1024 32 [1] iota_S1x1024_d1_w32) broadcasts_S1x1024_S2048x1024 (ix2 r c)
      = BitVec.ofNat 32 c.val := by
    refine (broadcastTo_apply _ _ _ (ix2 (0 : Fin 1) c) (fun a => by
      match a with
      | ⟨0, _⟩ => rfl
      | ⟨1, _⟩ => rfl)).trans ?_
    exact iota_single_apply _ _ _ _ _ _
  have e2 : broadcastTo S2048x1024 x1 broadcasts_S2048x1_S2048x1024 (ix2 r c) = x1 (ix2 r (0 : Fin 1)) :=
    broadcastTo_apply _ _ _ (ix2 r (0 : Fin 1)) (fun a => by
      match a with
      | ⟨0, _⟩ => rfl
      | ⟨1, _⟩ => rfl)
  show max (Scalar.select (IntOp.cmpi .eq
      (broadcastTo S2048x1024 (iota Kind.tc S1x1024 32 [1] iota_S1x1024_d1_w32) broadcasts_S1x1024_S2048x1024 (ix2 r c))
      (broadcastTo S2048x1024 x1 broadcasts_S2048x1_S2048x1024 (ix2 r c)))
      (Ideal.ofBits .f32 0x3F7FFF58#32 - x0 (ix2 r c)) (Ideal.ofBits .f32 0x00000000#32)) (Ideal.ofBits .f32 0x00000000#32) = _
  rw [e1, e2, Ideal.ofBits_zero_f32]
  rfl

/-- The column sum and then the row sum of the masked block: the one cell the two lane reductions leave. -/
theorem reduced_apply (B : Vec Ideal S2048x1024 .f32) (hφ : FKind.Formats .f32)
    (hacc : (0x00000000#32 : BitVec 32) = 0x00000000#32) (j : S1x1.Idx) :
    shapeCast S1x1
      (multiReduction (F := Ideal) FKind.add [0] S1
        (shapeCast S2048x1 (multiReduction (F := Ideal) FKind.add [1] S2048 B 0x00000000#32 reduces_S2048x1024_S2048 hφ hacc)
          shapeCasts_S2048_S2048x1)
        0x00000000#32 reduces_S2048x1_S1 hφ hacc)
      shapeCasts_S1_S1x1 j
      = ∑ r : Fin 2048, ∑ c : Fin 1024, B (ix2 r c) := by
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  refine (shapeCast_addUnit_apply (![1]) _ shapeCasts_S1_S1x1 (ix2 (0 : Fin 1) (0 : Fin 1))).trans ?_
  refine (Ideal.multiReduction_add_single _ 0x00000000#32 reduces_S2048x1_S1 hφ hacc _).trans ?_
  refine Finset.sum_congr rfl fun r _ => ?_
  refine (shapeCast_apply _ shapeCasts_S2048_S2048x1 _ (ix1 r) (by
    rw [Shape.rowMajor_val_one, Shape.rowMajor_val_two]
    show (r : ℕ) = (r : ℕ) * 1 + 0
    omega)).trans ?_
  refine (Ideal.multiReduction_add_single B 0x00000000#32 reduces_S2048x1024_S2048 hφ hacc (ix1 r)).trans ?_
  refine Finset.sum_congr rfl fun c _ => ?_
  exact congrArg B (funext fun d => by
    match d with
    | ⟨0, _⟩ => rfl
    | ⟨1, _⟩ => rfl)

/-- THE PAYLOAD. The cell the body stores back is the cell it read plus the block's double sum. -/
theorem pay2_apply (x0 : Vec Ideal S2048x1024 .f32) (x1 : Vec Ideal S2048x1 .i32) (v : Vec Ideal S1x1 .f32) (j : S1x1.Idx) :
    k0_pay2 (F := Ideal) x0 x1 v j = v j + blockSum x0 x1 := by
  unfold k0_pay2
  simp only [shapeCast_self]
  refine (addf_apply _ _ j).trans ?_
  refine congrArg (v j + ·) ?_
  refine (reduced_apply _ _ _ j).trans ?_
  unfold blockSum
  exact Finset.sum_congr rfl fun r _ => Finset.sum_congr rfl fun c _ => masked_apply x0 x1 r c

/-- The zero block the first point of each run of sixteen stores: zero everywhere. -/
theorem pay1_apply (y : S8x128.Idx) : k0_pay1 (F := Ideal) y = 0 := by
  unfold k0_pay1
  simp only [shapeCast_self]
  exact Ideal.ofBits_zero_f32

end Cert.LabelHinge.Kernel

end
-- ==== Proof.Body.lean ====
/-
  What each of the body's three control cases leaves in the accumulator buffer and in the output block.

  The accumulator is an 8 × 128 buffer of which only the cell (0, 0) is used. At the first point of a run of sixteen the
  body stores zeros over the whole buffer and then the cell; at the other points it stores the cell alone, over what the
  point before left; at the last point of a run it also copies the whole accumulator to the output block. In every case
  the cell becomes "what it held (zero after the reset) plus the block's double sum" and every other entry is kept.
-/
import proofs.«408514_j45518063403454_3_alg».proof.Proof.Gen.KernelIdeal.Frame
import proofs.«408514_j45518063403454_3_alg».proof.Proof.Payload
import Idealize.ShloMosaic.Lib.WritesUnit
import Idealize.ShloMosaic.Lib.Tactic

noncomputable section

open Idealize.ShloMosaic Idealize.ShloMosaic.TcCoe Idealize.SL.Sem Idealize.ShloMosaic.ValueIdx
open scoped BigOperators

namespace Cert.LabelHinge.Kernel

open Cert.KernelIdeal Cert.KernelIdeal.Gen Cert.LabelHinge

/-- `s` with `b` added into the cell (0, 0), every other entry kept. -/
def bump (s : S8x128.Idx → EReal) (b : EReal) : S8x128.Idx → EReal :=
  fun y => if (y 0).val = 0 ∧ (y 1).val = 0 then s y + b else s y

theorem hz : (![0, 0] : Fin 2 → Nat) = fun _ => 0 := funext fun a => by fin_cases a <;> rfl

/-- A load of a whole buffer reads its contents. -/
theorem load_whole {d : Fin 2 → ℕ} {e : EltTy} (a : Memref sig .tc .vmem ⟨2, d⟩ e) (h : a.IsWhole)
    (inb : ∀ k, (![0, 0] : Fin 2 → Nat) k + (⟨2, d⟩ : Shape).size k ≤ (⟨2, d⟩ : Shape).size k) (x : Vec Ideal ⟨2, d⟩ e) :
    View.readAt (Elt Ideal) a.view (Rect.unit (s := ⟨2, d⟩) ![0, 0] (⟨2, d⟩ : Shape).size inb).toLoadRect (h.unread x) = x := by
  rw [View.readAt_eq_ld, h.read_unread, View.ld_unit_zero (S := ⟨2, d⟩) hz]

/-- A load of the cell (0, 0) alone reads that entry. -/
theorem load_cell (a : Memref sig .tc .vmem S8x128 .f32) (h : a.IsWhole) (x : Vec Ideal S8x128 .f32) (j : S1x1.Idx) :
    View.readAt (Elt Ideal) a.view (Rect.unit (s := S8x128) ![0, 0] S1x1.size inb_S8x128_S1x1_0_0).toLoadRect (h.unread x) j
      = x (ix2 (0 : Fin 8) (0 : Fin 128)) := by
  rw [View.readAt_eq_ld, h.read_unread]
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  show x _ = x _
  refine congrArg x (funext fun k => Fin.ext ?_)
  match k with
  | ⟨0, _⟩ => rfl
  | ⟨1, _⟩ => rfl

/-- ONE STORE OF THE CELL over contents `f`: the cell reads the payload, every other entry what `f` held. -/
theorem read_cell_store (v : View sig .tc .vmem S8x128 .f32) (f : v.ty.Contents (Elt Ideal))
    (w : (Rect.unit (s := S8x128) ![0, 0] S1x1.size inb_S8x128_S1x1_0_0).shape.Idx → EReal)
    (L : List (View.Piece (Elt Ideal) S8x128 .f32)) (y : S8x128.Idx) :
    v.read (Elt Ideal) (v.writes (Elt Ideal) f ((⟨Rect.unit (s := S8x128) ![0, 0] S1x1.size inb_S8x128_S1x1_0_0, w⟩ : View.Piece (Elt Ideal) S8x128 .f32) :: L)) y
      = if (y 0).val = 0 ∧ (y 1).val = 0 then w (ix2 (0 : Fin 1) (0 : Fin 1)) else v.read (Elt Ideal) (v.writes (Elt Ideal) f L) y := by
  by_cases hy : (y 0).val = 0 ∧ (y 1).val = 0
  · rw [if_pos hy]
    exact View.read_writes_cons_unit_of_mem v f inb_S8x128_S1x1_0_0 w L y (ix2 (0 : Fin 1) (0 : Fin 1)) rfl (fun k => by
      match k with
      | ⟨0, _⟩ => exact hy.1
      | ⟨1, _⟩ => exact hy.2)
  · rw [if_neg hy]
    by_cases h0 : (y 0).val = 0
    · exact View.read_writes_cons_unit_of_not_mem v f inb_S8x128_S1x1_0_0 w L y rfl (1 : Fin 2) (Or.inr (by
        show 0 + 1 ≤ (y 1).val
        have : (y 1).val ≠ 0 := fun h1 => hy ⟨h0, h1⟩
        omega))
    · exact View.read_writes_cons_unit_of_not_mem v f inb_S8x128_S1x1_0_0 w L y rfl (0 : Fin 2) (Or.inr (by
        show 0 + 1 ≤ (y 0).val
        omega))

/-- An index whose two coordinates are zero is the cell. -/
theorem eq_cell (y : S8x128.Idx) (hy : (y 0).val = 0 ∧ (y 1).val = 0) : y = ix2 (0 : Fin 8) (0 : Fin 128) :=
  funext fun k => Fin.ext (by
    match k with
    | ⟨0, _⟩ => exact hy.1
    | ⟨1, _⟩ => exact hy.2)

/-- CASE B (neither the first nor the last point of a run): the cell gains the block's sum, the rest is kept. -/
theorem scratch_B (c : Dev nD) (i : grid0.Coords) (a2 : Memref sig .tc .vmem S2048x1024 .f32) (h2 : a2.IsWhole)
    (a3 : Memref sig .tc .vmem S2048x1 .i32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 : Vec Ideal S2048x1024 .f32) (x1 : Vec Ideal S2048x1 .i32) (xs0 : Vec Ideal S8x128 .f32) :
    sout0_B_0 (F := Ideal) c i a2 h2 a3 h3 a4 h4 a5 h5 hc0 hc1 x0 x1 xs0 = bump xs0 (blockSum x0 x1) := by
  funext y
  unfold sout0_B_0 kernelRun0_B
  dsimp only
  sl_unfold_words
  refine (read_cell_store a5.view (h5.unread xs0) _ [] y).trans ?_
  unfold bump
  by_cases hy : (y 0).val = 0 ∧ (y 1).val = 0
  · rw [if_pos hy, if_pos hy, pay2_apply, load_cell, load_whole, load_whole, eq_cell y hy]
  · rw [if_neg hy, if_neg hy, View.writes_nil, h5.read_unread]

/-- CASE C (the last point of a run): the accumulator as in case B … -/
theorem scratch_C (c : Dev nD) (i : grid0.Coords) (a2 : Memref sig .tc .vmem S2048x1024 .f32) (h2 : a2.IsWhole)
    (a3 : Memref sig .tc .vmem S2048x1 .i32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 : Vec Ideal S2048x1024 .f32) (x1 : Vec Ideal S2048x1 .i32) (xs0 : Vec Ideal S8x128 .f32) :
    sout0_C_0 (F := Ideal) c i a2 h2 a3 h3 a4 h4 a5 h5 hc0 hc1 x0 x1 xs0 = bump xs0 (blockSum x0 x1) := by
  funext y
  unfold sout0_C_0 kernelRun0_C
  dsimp only
  sl_unfold_words
  refine (read_cell_store a5.view (h5.unread xs0) _ [] y).trans ?_
  unfold bump
  by_cases hy : (y 0).val = 0 ∧ (y 1).val = 0
  · rw [if_pos hy, if_pos hy, pay2_apply, load_cell, load_whole, load_whole, eq_cell y hy]
  · rw [if_neg hy, if_neg hy, View.writes_nil, h5.read_unread]

/-- … and the output block is a copy of the accumulator after its update. -/
theorem out_C (c : Dev nD) (i : grid0.Coords) (a2 : Memref sig .tc .vmem S2048x1024 .f32) (h2 : a2.IsWhole)
    (a3 : Memref sig .tc .vmem S2048x1 .i32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 : Vec Ideal S2048x1024 .f32) (x1 : Vec Ideal S2048x1 .i32) (xs0 : Vec Ideal S8x128 .f32) :
    out0_C_2 (F := Ideal) c i a2 h2 a3 h3 a4 h4 a5 h5 hc0 hc1 x0 x1 xs0
      = sout0_C_0 (F := Ideal) c i a2 h2 a3 h3 a4 h4 a5 h5 hc0 hc1 x0 x1 xs0 := by
  unfold out0_C_2 sout0_C_0 kernelRun0_C
  dsimp only
  sl_unfold_words
  rw [View.read_writes_junk_eq_canon, View.canon_unit_zero hz, View.readAt_eq_ld, View.ld_unit_zero (S := S8x128) hz]

/-- CASE A (the first point of a run): zeros everywhere, then the cell gains the block's sum. -/
theorem scratch_A (c : Dev nD) (i : grid0.Coords) (a2 : Memref sig .tc .vmem S2048x1024 .f32) (h2 : a2.IsWhole)
    (a3 : Memref sig .tc .vmem S2048x1 .i32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 : Vec Ideal S2048x1024 .f32) (x1 : Vec Ideal S2048x1 .i32) :
    sout0_A_0 (F := Ideal) c i a2 h2 a3 h3 a4 h4 a5 h5 hc0 hc1 x0 x1 = bump (fun _ => 0) (blockSum x0 x1) := by
  funext y
  unfold sout0_A_0 kernelRun0_A
  dsimp only
  sl_unfold_words
  refine (read_cell_store VS0_0 VS0_0.junk _ _ y).trans ?_
  unfold bump
  by_cases hy : (y 0).val = 0 ∧ (y 1).val = 0
  · rw [if_pos hy, if_pos hy, pay2_apply, load_whole, load_whole, View.readCov_eq_canon', View.canon_unit_zero hz]
    show k0_pay1 (F := Ideal) _ + _ = 0 + _
    rw [pay1_apply]
  · rw [if_neg hy, if_neg hy, View.read_writes_junk_apply_eq_canon, View.canon_unit_zero hz, pay1_apply]

end Cert.LabelHinge.Kernel

end
-- ==== Proof.Accum.lean ====
/-
  The accumulator after each grid point, by induction on the point.

  The grid has 32 points in two runs of sixteen (point `n` is in run `n / 16`). Writing `σ s` for the double sum of
  point `s`'s block, the accumulator cell after point `n` holds `acc n`: `0 + σ n` at the first point of a run, and
  `acc (n - 1) + σ n` otherwise; every other entry of the accumulator is zero. Unrolled over a run, the cell after the
  run's last point holds the sum of the run's sixteen block sums, and the output block written there is that accumulator.
-/
import proofs.«408514_j45518063403454_3_alg».proof.Proof.Body

noncomputable section

open Idealize.ShloMosaic Idealize.ShloMosaic.TcCoe Idealize.SL.Sem Idealize.ShloMosaic.ValueIdx
open scoped BigOperators

namespace Cert.LabelHinge.Kernel

open Cert.KernelIdeal Cert.KernelIdeal.Gen Cert.LabelHinge

variable (m : (ℓ : Loc nD τ sig) → Buf (Elt Ideal) ℓ)

/-- The block of scores the body reads at point `t`. -/
abbrev xblk (c : Dev nD) (t : Fin cfg0.N) : Vec Ideal S2048x1024 .f32 := iblk m c 0 t
/-- The block of label words the body reads at point `t`. -/
abbrev lblk (c : Dev nD) (t : Fin cfg0.N) : Vec Ideal S2048x1 .i32 := iblk m c 1 t

/-- The block sum of point `s` (zero past the grid, so that the recursion below needs no bound). -/
def sig' (c : Dev nD) (s : ℕ) : EReal := if h : s < cfg0.N then blockSum (xblk m c ⟨s, h⟩) (lblk m c ⟨s, h⟩) else 0

theorem sig'_of_lt (c : Dev nD) (s : ℕ) (h : s < cfg0.N) : sig' m c s = blockSum (xblk m c ⟨s, h⟩) (lblk m c ⟨s, h⟩) := dif_pos h

/-- The accumulator cell after point `n`. -/
def acc (c : Dev nD) : ℕ → EReal
  | 0 => 0 + sig' m c 0
  | n + 1 => if (n + 1) % 16 = 0 then 0 + sig' m c (n + 1) else acc c n + sig' m c (n + 1)

/-- The accumulator buffer holding `a` in the cell and zero elsewhere. -/
def cell (a : EReal) : S8x128.Idx → EReal := fun y => if (y 0).val = 0 ∧ (y 1).val = 0 then a else 0

theorem bump_cell (a b : EReal) : bump (cell a) b = cell (a + b) := by
  funext y; unfold bump cell
  by_cases hy : (y 0).val = 0 ∧ (y 1).val = 0
  · rw [if_pos hy, if_pos hy, if_pos hy]
  · rw [if_neg hy, if_neg hy, if_neg hy]

theorem bump_zero (b : EReal) : bump (fun _ => 0) b = cell (0 + b) := by
  funext y; unfold bump cell
  by_cases hy : (y 0).val = 0 ∧ (y 1).val = 0
  · rw [if_pos hy]
  · rw [if_neg hy]

/-- THE INVARIANT: after point `n` the accumulator is `cell (acc n)`. -/
theorem scratch_eq (c : Dev nD) : ∀ (n : ℕ) (h : n < cfg0.N), (outsAt0 m c n h).2 = cell (acc m c n)
  | 0, h => by
    rw [outsAt0_A m c ⟨0, h⟩ rfl (show ¬(0 : ℕ) % 16 = 15 by decide)]
    dsimp only
    rw [scratch_A, bump_zero]
    show cell (0 + blockSum (xblk m c ⟨0, h⟩) (lblk m c ⟨0, h⟩)) = cell (0 + sig' m c 0)
    rw [sig'_of_lt m c 0 h]
  | n + 1, h => by
    have hN : cfg0.N = 32 := N_0
    have ih := scratch_eq c n (Nat.lt_of_succ_lt h)
    by_cases h0 : (n + 1) % 16 = 0
    · have h1 : ¬(n + 1) % 16 = 15 := by omega
      rw [outsAt0_A m c ⟨n + 1, h⟩ h0 h1]
      dsimp only
      rw [scratch_A, bump_zero]
      show cell (0 + blockSum (xblk m c ⟨n + 1, h⟩) (lblk m c ⟨n + 1, h⟩)) = cell (acc m c (n + 1))
      rw [acc, if_pos h0, sig'_of_lt m c (n + 1) h]
    · by_cases h1 : (n + 1) % 16 = 15
      · rw [outsAt0_C m c ⟨n + 1, h⟩ h0 h1]
        dsimp only
        rw [scratch_C]
        show bump (outsAt0 m c n _).2 (blockSum (xblk m c ⟨n + 1, h⟩) (lblk m c ⟨n + 1, h⟩)) = cell (acc m c (n + 1))
        rw [ih, bump_cell, acc, if_neg h0, sig'_of_lt m c (n + 1) h]
      · rw [outsAt0_B m c ⟨n + 1, h⟩ h0 h1]
        dsimp only
        rw [scratch_B]
        show bump (outsAt0 m c n _).2 (blockSum (xblk m c ⟨n + 1, h⟩) (lblk m c ⟨n + 1, h⟩)) = cell (acc m c (n + 1))
        rw [ih, bump_cell, acc, if_neg h0, sig'_of_lt m c (n + 1) h]

/-- At the last point of a run the output block is the accumulator. -/
theorem out_eq (c : Dev nD) (t : Fin cfg0.N) (h1 : t.val % 16 = 15) : (outsAt0 m c t.val t.isLt).1 = cell (acc m c t.val) := by
  have h0 : ¬t.val % 16 = 0 := by omega
  have e := scratch_eq m c t.val t.isLt
  rw [outsAt0_C m c t h0 h1] at e ⊢
  dsimp only at e ⊢
  rw [out_C]
  exact e

/-- A run unrolled: after the `j`-th point of run `p` the cell holds the sum of the run's first `j + 1` block sums. -/
theorem acc_run (c : Dev nD) (p : ℕ) : ∀ j : ℕ, j < 16 → acc m c (16 * p + j) = ∑ s ∈ Finset.range (j + 1), sig' m c (16 * p + s)
  | 0, _ => by
    rw [Finset.sum_range_one, Nat.add_zero]
    cases p with
    | zero => show 0 + sig' m c 0 = _; rw [zero_add]
    | succ p =>
      have e : 16 * (p + 1) = (16 * p + 15) + 1 := by omega
      rw [e, acc, if_pos (by omega), zero_add]
  | j + 1, hj => by
    have e : 16 * p + (j + 1) = (16 * p + j) + 1 := by omega
    rw [e, acc, if_neg (by omega), acc_run c p j (by omega), Finset.sum_range_succ _ (j + 1)]
    rfl

end Cert.LabelHinge.Kernel

end
-- ==== Proof.Final.lean ====
/-
  The output array after the run, and the host's last two operations on it.

  The output is 16 × 128, one 8 × 128 block per run of sixteen points, written back at the run's last point with the
  accumulator: so it holds the run's sum of block sums at (8·p, 0) and zero everywhere else. The host then adds all of
  its entries from zero — the two runs' sums — and divides by the pattern of 65536.0.
-/
import proofs.«408514_j45518063403454_3_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.LabelHinge.Kernel

open Cert.KernelIdeal Cert.KernelIdeal.Gen Cert.LabelHinge

variable (m : (ℓ : Loc nD τ sig) → Buf (Elt Ideal) ℓ) (ρ : Dev nD → PrngReg)

/-- The output window's block index, decided over the grid: block row `t / 16`, block column 0. -/
theorem idx_out : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The output array after the run: the sum of run `p`'s block sums at (8·p, 0), zero elsewhere. -/
def outArr (c : Dev nD) : S16x128.Idx → EReal := fun i =>
  if (i 0).val % 8 = 0 ∧ (i 1).val = 0 then acc m c (16 * ((i 0).val / 8) + 15) else 0

/-- WHAT A WRITE-BACK WRITES: at the last point of a run, the block of `outArr` that point's index names. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  have hN : cfg0.N = 32 := N_0
  have htl := t.isLt
  show (cfg0.win 2).cut (grid0.coords t) ((dats m 0 c).after 2 t) = _
  rw [after0_2, out_eq m c t h15]
  obtain ⟨e0, e1⟩ := idx_out t
  funext j
  show cell (acc m c t.val) j = outArr m c (((cfg0.win 2).blk t).view.emb j)
  have hj0 : (j 0).val < 8 := (j 0).isLt
  have hj1 : (j 1).val < 128 := (j 1).isLt
  have c0 : ((((cfg0.win 2).blk t).view.emb j) 0).val = win0_2.index t (0 : Fin 2) * 8 + 1 * (j 0).val := rfl
  have c1 : ((((cfg0.win 2).blk t).view.emb j) 1).val = win0_2.index t (1 : Fin 2) * 128 + 1 * (j 1).val := rfl
  unfold cell outArr
  rw [c0, c1, e0, e1]
  by_cases hy : (j 0).val = 0 ∧ (j 1).val = 0
  · rw [if_pos hy, if_pos (by omega)]
    congr 1
    omega
  · rw [if_neg hy, if_neg (by omega)]

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- THE OUTPUT ARRAY after the run is `outArr`: the two write-backs' blocks cover it. -/
theorem final_out (c : Dev nD) : (dats m 0 c).arrAt 2 cfg0.N = outArr m c :=
  (dats m 0 c).arrAt_eq_of_cover 2 (outArr m c) (flushed_eq m c) fun i => by
    have hN : cfg0.N = 32 := N_0
    have hi0 : (i 0).val < 16 := (i 0).isLt
    have hi1 : (i 1).val < 128 := (i 1).isLt
    refine ⟨⟨16 * ((i 0).val / 8) + 15, by omega⟩, (flush0_2 _).mpr (by show (16 * ((i 0).val / 8) + 15) % 16 = 15; omega), ?_⟩
    rw [mem_blk]
    obtain ⟨e0, e1⟩ := idx_out ⟨16 * ((i 0).val / 8) + 15, by omega⟩
    intro a
    match a with
    | ⟨0, _⟩ =>
      show win0_2.index _ (0 : Fin 2) * 8 ≤ (i 0).val ∧ (i 0).val < win0_2.index _ (0 : Fin 2) * 8 + 8
      rw [e0]
      show (16 * ((i 0).val / 8) + 15) / 16 * 8 ≤ (i 0).val ∧ (i 0).val < (16 * ((i 0).val / 8) + 15) / 16 * 8 + 8
      omega
    | ⟨1, _⟩ =>
      show win0_2.index _ (1 : Fin 2) * 128 ≤ (i 1).val ∧ (i 1).val < win0_2.index _ (1 : Fin 2) * 128 + 128
      rw [e1]
      omega

/-- THE HOST'S LAST OPERATIONS: the result buffer after the lines that follow the region is the quotient, by the
    pattern of 65536.0, of the sum from zero of the output array's entries. -/
theorem tail_eq (c : Dev nD) :
    Pipeline.afterTail₀ cfgs (dats m) 0 (V0 m) [hostOps1] c main_v4
      = Host.divf (F := Ideal) (Host.reduceAdd (F := Ideal) (outArr m c) (constant (F := Ideal) S_ .f32 0x00000000#32) reducesTo_S16x128_S_d0_1 h_S_)
          (constant (F := Ideal) S_ .f32 0x47800000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = outArr m c :=
    (Pipeline.withArrays_arr spec0 launch0.win.arr_inj c _ _ 2).trans (final_out m c)
  rw [e]

/-- The sum of the output array's entries: the two cells that are not zero. -/
theorem sum_outArr (c : Dev nD) : (∑ i : S16x128.Idx, outArr m c i) = acc m c 15 + acc m c 31 := by
  rw [sum_idx2]
  have inner : ∀ a : Fin 16, (∑ b : Fin 128, outArr m c (ix2 a b))
      = if a.val % 8 = 0 then acc m c (16 * (a.val / 8) + 15) else 0 := by
    intro a
    show (∑ b : Fin 128, if a.val % 8 = 0 ∧ b.val = 0 then acc m c (16 * (a.val / 8) + 15) else 0) = _
    by_cases ha : a.val % 8 = 0
    · rw [if_pos ha, Finset.sum_eq_single (0 : Fin 128)]
      · rw [if_pos ⟨ha, rfl⟩]
      · intro b _ hb
        rw [if_neg]
        intro h
        exact hb (Fin.ext h.2)
      · intro h
        exact absurd (Finset.mem_univ _) h
    · rw [if_neg ha]
      exact Finset.sum_eq_zero fun b _ => if_neg (fun h => ha h.1)
  rw [Finset.sum_congr rfl fun a _ => inner a, Finset.sum_ite, Finset.sum_const_zero, add_zero]
  have hf : (Finset.univ.filter fun a : Fin 16 => a.val % 8 = 0) = {0, 8} := by decide
  rw [hf, Finset.sum_pair (by decide)]
  rfl

/-- The two runs' sums together are the sum of all 32 block sums. -/
theorem runs_sum (c : Dev nD) : acc m c 15 + acc m c 31 = ∑ t : Fin 32, sig' m c t.val := by
  have a0 : acc m c 15 = ∑ s ∈ Finset.range 16, sig' m c s := by
    have := acc_run m c 0 15 (by omega)
    simpa using this
  have a1 : acc m c 31 = ∑ s ∈ Finset.range 16, sig' m c (16 + s) := by
    have := acc_run m c 1 15 (by omega)
    simpa using this
  rw [Fin.sum_univ_eq_sum_range (fun s => sig' m c s) 32, show (32 : ℕ) = 16 + 16 from rfl, Finset.sum_range_add, a0, a1]

/-- The host's sum from zero over the output array: zero plus the sum of the 32 block sums. -/
theorem reduce_out (c : Dev nD) :
    Host.reduceAdd (F := Ideal) (outArr m c) (constant (F := Ideal) S_ .f32 0x00000000#32) reducesTo_S16x128_S_d0_1 h_S_
      = fun _ => Ideal.ofBits .f32 0x00000000#32 + ∑ t : Fin 32, sig' m c t.val := by
  funext i
  simp only [Host.reduceAdd, Ideal.hostReduceAdd_def]
  refine (Ideal.hostReduceAdd_total reducesTo_S16x128_S_d0_1 (fun b => b.elim0) (outArr m c) _ i).trans ?_
  rw [sum_outArr, runs_sum]
  rfl

end Cert.LabelHinge.Kernel

end
-- ==== Proof.Words.lean ====
/-
  Label words that name columns: what the two programs' integer arithmetic does to them.

  A 32-bit word whose unsigned value is below 1024 is non-negative as a signed word, so a clamp into [0, 1023] returns
  it, and it equals the word of a column number `c < 1024` exactly when `c` is its value. A row of the masked block
  therefore sums to the hinge of the score at the label's column.
-/
import proofs.«408514_j45518063403454_3_alg».proof.Proof.Spec
import Idealize.ShloMosaic.Lib.StableHlo.Predicate

noncomputable section

open Idealize.ShloMosaic Idealize.ShloMosaic.ValueIdx
open scoped BigOperators

namespace Cert.LabelHinge

/-- A word below 1024 is not negative: the clamp's lower bound 0 leaves it … -/
theorem maxsi_zero_of_lt (w : BitVec 32) (h : w.toNat < 1024) : IntOp.maxsi 0#32 w = w := by
  unfold IntOp.maxsi
  have : w.slt 0#32 = false := by
    rw [Bool.eq_false_iff]
    intro hs
    rw [BitVec.slt_iff_toInt_lt] at hs
    rw [BitVec.toInt_eq_toNat_of_lt (x := w) (by omega)] at hs
    have e0 : (0#32 : BitVec 32).toInt = 0 := by decide
    rw [e0] at hs
    omega
  rw [this]; rfl

/-- … and so does its upper bound 1023. -/
theorem minsi_max_of_lt (w : BitVec 32) (h : w.toNat < 1024) : IntOp.minsi 1023#32 w = w := by
  unfold IntOp.minsi
  have : (1023#32 : BitVec 32).slt w = false := by
    rw [Bool.eq_false_iff]
    intro hs
    rw [BitVec.slt_iff_toInt_lt] at hs
    rw [BitVec.toInt_eq_toNat_of_lt (x := w) (by omega)] at hs
    have e : (1023#32 : BitVec 32).toInt = 1023 := by decide
    rw [e] at hs
    omega
  rw [this]; rfl

/-- The clamp of a column-naming word into [0, 1023] is the word. -/
theorem clip_of_lt (w : BitVec 32) (h : w.toNat < 1024) : IntOp.minsi 1023#32 (IntOp.maxsi 0#32 w) = w := by
  rw [maxsi_zero_of_lt w h, minsi_max_of_lt w h]

/-- The mask bit: column `c`'s number, as a word, equals the label word exactly when `c` is the label's column. -/
theorem select_col (c k : Fin 1024) (w : BitVec 32) (hk : k.val = w.toNat) (a : EReal) :
    Scalar.select (IntOp.cmpi .eq (BitVec.ofNat 32 c.val) w) a 0 = if c = k then a else 0 := by
  have hiff : (IntOp.cmpi .eq (BitVec.ofNat 32 c.val) w = 1#1) ↔ c = k := by
    rw [StableHlo.Predicate.cmpi_eq_iff]
    have hc := c.isLt
    have hkl := k.isLt
    constructor
    · intro h
      apply Fin.ext
      rw [hk, ← h, BitVec.toNat_ofNat]
      omega
    · intro h
      subst h
      apply BitVec.eq_of_toNat_eq
      rw [BitVec.toNat_ofNat, ← hk]
      omega
  show (if _ then a else 0) = _
  exact if_congr hiff rfl rfl

/-- A ROW OF THE MASKED BLOCK sums to the hinge of the score at the label's column. -/
theorem row_hinge (xr : Fin 1024 → EReal) (w : BitVec 32) (k : Fin 1024) (hk : k.val = w.toNat) :
    (∑ c : Fin 1024, max (Scalar.select (IntOp.cmpi .eq (BitVec.ofNat 32 c.val) w) (margin - xr c) 0) 0) = hinge (xr k) := by
  have e : ∀ c : Fin 1024, max (Scalar.select (IntOp.cmpi .eq (BitVec.ofNat 32 c.val) w) (margin - xr c) 0) 0
      = max (if c = k then (fun c => margin - xr c) c else 0) 0 := fun c => by rw [select_col c k w hk]
  rw [Finset.sum_congr rfl fun c _ => e c]
  exact sum_masked_row (fun c => margin - xr c) k

end Cert.LabelHinge

end
-- ==== Proof.Blocks.lean ====
/-
  What the body reads at a grid point, in terms of the argument arrays.

  Point `t` reads rows 2048·t … 2048·t + 2047 of the scores, and the same rows of the label column the host prepared
  (the labels clamped into [0, 1023], which changes nothing when every label names a column). So the block's double sum
  is the sum of those rows' hinges.
-/
import proofs.«408514_j45518063403454_3_alg».proof.Proof.Gen.KernelIdeal.Frame
import proofs.«408514_j45518063403454_3_alg».proof.Proof.Payload
import proofs.«408514_j45518063403454_3_alg».proof.Proof.Words
import Idealize.ShloMosaic.Lib.StableHlo.Run

noncomputable section

open Idealize.ShloMosaic Idealize.ShloMosaic.TcCoe Idealize.SL.Sem Idealize.ShloMosaic.ValueIdx
open scoped BigOperators

namespace Cert.LabelHinge.Kernel

open Cert.KernelIdeal Cert.KernelIdeal.Gen Cert.LabelHinge

variable (m : (ℓ : Loc nD τ sig) → Buf (Elt Ideal) ℓ)

/-- The scores as launched, on core `c`. -/
abbrev scores (c : Dev nD) : SX.Idx → EReal := m ((c.tc : Thread nD τ).loc main_arg0)
/-- The label words as launched, on core `c`. -/
abbrev labels (c : Dev nD) : IVec SL 32 := m ((c.tc : Thread nD τ).loc main_arg1)

/-- Row `r` of block `t` is row 2048·t + r of the array. -/
def rowOf (t : Fin cfg0.N) (r : Fin 2048) : Fin 65536 :=
  ⟨2048 * t.val + r.val, by have := t.isLt; have hN : cfg0.N = 32 := N_0; have := r.isLt; omega⟩

/-- Where the two input windows sit at point t: block row t, block column 0 (decided over the grid). -/
theorem index_facts : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- The scores' block at point t, at row r and column cc, is the launched scores at row 2048·t + r, column cc. -/
theorem iblk0_apply (c : Dev nD) (t : Fin cfg0.N) (r : Fin 2048) (cc : Fin 1024) :
    (iblk m c 0 t : Vec Ideal S2048x1024 .f32) (ix2 r cc) = scores m c (ix2 (rowOf t r) cc) := by
  have hi := index_facts t
  unfold iblk
  rw [View.read_apply]
  show V m c main_arg0 _ = scores m c _
  rw [V_main_arg0]
  show m ((c.tc : Thread nD τ).loc main_arg0) _ = m ((c.tc : Thread nD τ).loc main_arg0) _
  congr 1
  funext a
  apply Fin.ext
  match a with
  | ⟨0, _⟩ =>
    show win0_0.index t 0 * 2048 + 1 * r.val = 2048 * t.val + r.val
    rw [hi.1]; omega
  | ⟨1, _⟩ =>
    show win0_0.index t 1 * 1024 + 1 * cc.val = cc.val
    rw [hi.2.1]; omega

/-- The label column's block at point t, at row r, is the prepared label column at row 2048·t + r. -/
theorem iblk1_apply (c : Dev nD) (t : Fin cfg0.N) (r : Fin 2048) :
    (iblk m c 1 t : Vec Ideal S2048x1 .i32) (ix2 r (0 : Fin 1))
      = (V m c main_v1 : S65536x1.Idx → BitVec 32) (ix2 (rowOf t r) (0 : Fin 1)) := by
  have hi := index_facts t
  unfold iblk
  rw [View.read_apply]
  show V m c main_v1 _ = V m c main_v1 _
  congr 1
  funext a
  apply Fin.ext
  match a with
  | ⟨0, _⟩ =>
    show win0_1.index t 0 * 2048 + 1 * r.val = 2048 * t.val + r.val
    rw [hi.2.2.1]; omega
  | ⟨1, _⟩ =>
    show win0_1.index t 1 * 1 + 1 * 0 = 0
    rw [hi.2.2.2]

/-- What the host wrote into the label column before the region: the labels clamped into [0, 1023], as a column. -/
theorem V_main_v1 (c : Dev nD) :
    (V m c main_v1 : S65536x1.Idx → BitVec 32)
      = shapeCast S65536x1 (minsi (broadcastInDim S65536 ![] bcast_S_S65536 (constantI S_ 32 1023#32))
          (maxsi (broadcastInDim S65536 ![] bcast_S_S65536 (constantI S_ 32 0#32)) (labels m c))) shapeCasts_S65536_S65536x1 := by
  dsimp only [Gen.V, Gen.V0]
  simp only [Gen.hostOps0, Gen.hostOps0_1, Gen.hostOps0_2, List.flatten_cons, List.flatten_nil, List.append_nil, List.cons_append,
    List.nil_append]
  after_results
  rfl

/-- When every label names a column, the prepared label column at row i is the label word itself: the clamp into
    [0, 1023] returns it. -/
theorem prepared_apply (c : Dev nD) (h : InRange (labels m c)) (i : Fin 65536) :
    (V m c main_v1 : S65536x1.Idx → BitVec 32) (ix2 i (0 : Fin 1)) = labels m c (ix1 i) := by
  rw [V_main_v1 m c]
  refine (shapeCast_apply _ shapeCasts_S65536_S65536x1 (ix2 i (0 : Fin 1)) (ix1 i) (by
    rw [Shape.rowMajor_val_one, Shape.rowMajor_val_two]
    show (i : ℕ) = (i : ℕ) * 1 + 0
    omega)).trans ?_
  show IntOp.minsi 1023#32 (IntOp.maxsi 0#32 (labels m c (ix1 i))) = _
  exact clip_of_lt _ (h (ix1 i))

/-- One masked entry of point t's block, in terms of the launched arrays: row r of the block is row 2048·t + r. -/
theorem maskedEntry_block (c : Dev nD) (h : InRange (labels m c)) (t : Fin cfg0.N) (r : Fin 2048) (cc : Fin 1024) :
    maskedEntry (iblk m c 0 t : Vec Ideal S2048x1024 .f32) (iblk m c 1 t : Vec Ideal S2048x1 .i32) r cc
      = max (Scalar.select (IntOp.cmpi .eq (BitVec.ofNat 32 cc.val) (labels m c (ix1 (rowOf t r))))
          (margin - scores m c (ix2 (rowOf t r) cc)) 0) 0 := by
  unfold maskedEntry
  rw [iblk0_apply m c t r cc, iblk1_apply m c t r, prepared_apply m c h (rowOf t r)]

/-- THE BLOCK SUM OF POINT `t`, when every label names a column: the sum of the hinges of the block's 2048 rows. -/
theorem blockSum_eq (c : Dev nD) (h : InRange (labels m c)) (t : Fin cfg0.N) :
    blockSum (iblk m c 0 t : Vec Ideal S2048x1024 .f32) (iblk m c 1 t : Vec Ideal S2048x1 .i32)
      = ∑ r : Fin 2048, hinge (scores m c (ix2 (rowOf t r) (col (labels m c) (rowOf t r)))) := by
  unfold blockSum
  refine Finset.sum_congr rfl fun r _ => ?_
  rw [Finset.sum_congr rfl fun cc _ => maskedEntry_block m c h t r cc]
  exact row_hinge (fun cc => scores m c (ix2 (rowOf t r) cc)) (labels m c (ix1 (rowOf t r)))
    (col (labels m c) (rowOf t r)) (col_val h (rowOf t r))

end Cert.LabelHinge.Kernel

end
-- ==== Proof.KernelSide.lean ====
/-
  The kernel's run, read at the ideal instance: for labels that name columns its result is the mean of the hinges.

  The frame run leaves the output array at the two runs' sums and the result buffer at the host's last two operations
  on it (zero plus the sum of the 32 block sums, divided by the pattern of 65536.0); each block sum is the sum of its
  2048 rows' hinges, and the 32 blocks are the 65536 rows.
-/
import proofs.«408514_j45518063403454_3_alg».proof.Proof.Final
import proofs.«408514_j45518063403454_3_alg».proof.Proof.Blocks

noncomputable section

open Idealize.ShloMosaic Idealize.ShloMosaic.TcCoe Idealize.SL.Sem Idealize.ShloMosaic.ValueIdx
open Idealize.ShloMosaic.Pipeline (Dat)
open scoped BigOperators

namespace Cert.LabelHinge.Kernel

open Cert.KernelIdeal Cert.KernelIdeal.Gen Cert.LabelHinge

variable (m : (ℓ : Loc nD τ sig) → Buf (Elt Ideal) ℓ) (ρ : Dev nD → PrngReg)

/-- The 32 block sums together are the total over the 65536 rows. -/
theorem sum_blocks_eq_total (c : Dev nD) (h : InRange (labels m c)) :
    (∑ t : Fin 32, sig' m c t.val) = total (scores m c) (labels m c) := by
  unfold total
  rw [sum_rows_blocks]
  refine Finset.sum_congr rfl fun t _ => ?_
  have ht : t.val < cfg0.N := by rw [show cfg0.N = 32 from N_0]; exact t.isLt
  rw [sig'_of_lt m c t.val ht]
  exact blockSum_eq m c h ⟨t.val, ht⟩

/-- THE KERNEL'S RUN: every weakly fair execution terminates with the result buffer at the mean of the hinges and the two
    argument arrays unchanged. -/
theorem run (h : ∀ c : Dev nD, InRange (labels m c)) :
    θ_run defs (onTc (τ := τ) (main (F := Ideal))) ⟨m, fun _ => 0, ρ⟩ fun r => ∀ c : Dev nD,
      r.2.mem ((c.tc : Thread nD τ).loc main_v4) = mean (scores m c) (labels m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c =>
    ⟨((hr c).2 main_v4 (Pipeline.mem_restRefs_of main_v4 (by decide) (by decide))).trans
        ((tail_eq m c).trans (by rw [reduce_out, sum_blocks_eq_total m c (h c)]; rfl)),
      ((hr c).1 0).trans (((dats m 0 c).arrAt_in 0 rfl _).trans ((A_eq m c 0).trans (V_main_arg0 m c))),
      ((hr c).2 main_arg1 (Pipeline.mem_restRefs_of main_arg1 (by decide) (by decide))).trans (W_main_arg1 m (dats m) c)⟩)
    (run_main m ρ)

end Cert.LabelHinge.Kernel

end
-- ==== Proof.lean ====
/-
  The certificate: the kernel and the reference both compute the mean, over 65536 rows, of the hinge
  `max (μ - x[i, ℓ i]) 0` of the score at the row's label column.

  The kernel masks each row with "column number = label", clips at zero, sums the row, sums 2048 rows, and adds the block's
  sum into one accumulator cell per run of sixteen grid points; the host adds the two runs' cells and divides by 65536.
  The reference gathers the score at the label's column, takes the hinge, sums from zero and divides by 65536. With every
  label in [0, 1024) — the precondition's added conjuncts — the mask picks exactly the gathered column (a row of masked,
  clipped entries sums to the one hinge, since every other entry is `max 0 0 = 0`), the clamp of the labels and the
  "add 1024 if negative" of the reference leave them alone, and regrouping a sum of extended reals into 32 blocks of 2048
  rows needs only that `+` is commutative and associative: finiteness of the scores is never used.

  The three frames: the two kernels' are generated; the reference's is its generated run with the result dropped. The
  ideal pass rewrote nothing, so `preserves` is `True`.
-/
import proofs.«408514_j45518063403454_3_alg».proof.Defs
import proofs.«408514_j45518063403454_3_alg».proof.Proof.Gen.Kernel
import proofs.«408514_j45518063403454_3_alg».proof.Proof.Gen.Kernel.Skeleton
import proofs.«408514_j45518063403454_3_alg».proof.Proof.Gen.Kernel.Launch
import proofs.«408514_j45518063403454_3_alg».proof.Proof.Gen.Kernel.Points
import proofs.«408514_j45518063403454_3_alg».proof.Proof.Gen.Kernel.Frame
import proofs.«408514_j45518063403454_3_alg».proof.Proof.Gen.KernelIdeal
import proofs.«408514_j45518063403454_3_alg».proof.Proof.Gen.KernelIdeal.Skeleton
import proofs.«408514_j45518063403454_3_alg».proof.Proof.Gen.KernelIdeal.Launch
import proofs.«408514_j45518063403454_3_alg».proof.Proof.Gen.KernelIdeal.Points
import proofs.«408514_j45518063403454_3_alg».proof.Proof.Gen.KernelIdeal.Frame
import proofs.«408514_j45518063403454_3_alg».proof.Proof.Gen.ReferenceIdeal
import proofs.«408514_j45518063403454_3_alg».proof.Proof.Gen.ReferenceIdeal.Run
import proofs.«408514_j45518063403454_3_alg».proof.Proof.Gen.ReferenceIdeal.Read
import proofs.«408514_j45518063403454_3_alg».proof.Proof.Gen.Pre_finite_inputs
import proofs.«408514_j45518063403454_3_alg».proof.Proof.PreRange
import proofs.«408514_j45518063403454_3_alg».proof.Proof.RefSide
import proofs.«408514_j45518063403454_3_alg».proof.Proof.KernelSide
import Idealize.ShloMosaic.Adequacy
import Idealize.ShloMosaic.Init

noncomputable section

namespace Cert.Proof

open Idealize.ShloMosaic Idealize.SL.Sem Cert.LabelHinge

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance, from memories that agree on the two arguments, both programs end with the mean of the hinges:
    the precondition puts every label in [0, 1024), under which the kernel's run and the reference's last stage are that
    one function of the arguments. -/
theorem algebraic : Cert.algebraic_KernelIdeal_ReferenceIdeal := by
  intro m ρ m' ρ' hpre hagree
  have hr : ∀ c : Dev Cert.KernelIdeal.nD, InRange (Cert.LabelHinge.Kernel.labels m c) :=
    fun c => inRange_of_pre (F := Ideal) _ _ (hpre c)
  refine ⟨fun c => mean (Cert.LabelHinge.Kernel.scores m c) (Cert.LabelHinge.Kernel.labels m c),
    Cert.LabelHinge.Kernel.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v20_eq]
  exact Cert.LabelHinge.Ref.ref_eq _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
